-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x8192 : Shape := ⟨3, ![8, 2048, 8192]⟩
abbrev S2048x8192 : Shape := ⟨2, ![2048, 8192]⟩
abbrev S8192 : Shape := ⟨1, ![8192]⟩
abbrev S_ : Shape := ⟨0, ![]⟩

class Facts : Prop where
  bcast_S_S8x2048x8192 : S_.BroadcastsInDim S8x2048x8192 (![] : Fin 0 → Fin S8x2048x8192.rank)
  reducesTo_S8x2048x8192_S_d0_1_2 : S8x2048x8192.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8x2048x8192 .f32) (main_arg1 : FVec F S2048x8192 .f32) (main_arg2 : FVec F S8192 .f32) : IVec S_ 1 :=
  let main_v0 : FVec F S8x2048x8192 .f32 := Host.absf main_arg0
  let main_cst : FVec F S_ .f32 := constant S_ .f32 0x7F800000#32
  let main_v1 : FVec F S8x2048x8192 .f32 := broadcastInDim S8x2048x8192 ![] bcast_S_S8x2048x8192 main_cst
  let main_v2 : IVec S8x2048x8192 1 := cmpf .olt main_v0 main_v1
  let main_c : IVec S_ 1 := constantI S_ 1 1#1
  let main_v3 : IVec S_ 1 := (fun x v => Host.reduce IntOp.andi x v reducesTo_S8x2048x8192_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8x2048x8192 : Shape := ⟨3, ![8, 2048, 8192]⟩
abbrev S2048x8192 : Shape := ⟨2, ![2048, 8192]⟩
abbrev S8192 : Shape := ⟨1, ![8192]⟩
abbrev S8x32x8192 : Shape := ⟨3, ![8, 32, 8192]⟩
abbrev S32x8192 : Shape := ⟨2, ![32, 8192]⟩
abbrev S1x32x8192 : Shape := ⟨3, ![1, 32, 8192]⟩
abbrev S32 : Shape := ⟨1, ![32]⟩
abbrev S32x1 : Shape := ⟨2, ![32, 1]⟩
abbrev S1x8192 : Shape := ⟨2, ![1, 8192]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x8192, .f32⟩
  | .hbm, ⟨1, _⟩ => ⟨S2048x8192, .f32⟩
  | .hbm, ⟨2, _⟩ => ⟨S8192, .f32⟩
  | .hbm, ⟨3, _⟩ => ⟨S2048x8192, .f32⟩
  | .hbm, ⟨4, _⟩ => ⟨S2048x8192, .f32⟩
  | .local _ .vmem, ⟨0, _⟩ => ⟨S8x32x8192, .f32⟩
  | .local _ .vmem, ⟨1, _⟩ => ⟨S8x32x8192, .f32⟩
  | .local _ .vmem, ⟨2, _⟩ => ⟨S32x8192, .f32⟩
  | .local _ .vmem, ⟨3, _⟩ => ⟨S32x8192, .f32⟩
  | .local _ .vmem, ⟨4, _⟩ => ⟨S8192, .f32⟩
  | .local _ .vmem, ⟨5, _⟩ => ⟨S32x8192, .f32⟩
  | .local _ .vmem, ⟨6, _⟩ => ⟨S32x8192, .f32⟩
  | .local _ .vmem, ⟨7, _⟩ => ⟨S32x8192, .f32⟩
  | .local _ .vmem, ⟨8, _⟩ => ⟨S32x8192, .f32⟩
  | _, _ => ⟨S8x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x32x8192_S1x32x8192_0_0_0 : ∀ a, (![0, 0, 0] : Fin 3 → Nat) a + S1x32x8192.size a ≤ S8x32x8192.size a
  h_S1x32x8192 : 0 < S1x32x8192.numel
  shapeCasts_S1x32x8192_S32x8192 : S1x32x8192.ShapeCasts S32x8192
  inb_S8x32x8192_S1x32x8192_1_0_0 : ∀ a, (![1, 0, 0] : Fin 3 → Nat) a + S1x32x8192.size a ≤ S8x32x8192.size a
  inb_S8x32x8192_S1x32x8192_2_0_0 : ∀ a, (![2, 0, 0] : Fin 3 → Nat) a + S1x32x8192.size a ≤ S8x32x8192.size a
  inb_S8x32x8192_S1x32x8192_3_0_0 : ∀ a, (![3, 0, 0] : Fin 3 → Nat) a + S1x32x8192.size a ≤ S8x32x8192.size a
  inb_S8x32x8192_S1x32x8192_4_0_0 : ∀ a, (![4, 0, 0] : Fin 3 → Nat) a + S1x32x8192.size a ≤ S8x32x8192.size a
  inb_S8x32x8192_S1x32x8192_5_0_0 : ∀ a, (![5, 0, 0] : Fin 3 → Nat) a + S1x32x8192.size a ≤ S8x32x8192.size a
  inb_S8x32x8192_S1x32x8192_6_0_0 : ∀ a, (![6, 0, 0] : Fin 3 → Nat) a + S1x32x8192.size a ≤ S8x32x8192.size a
  inb_S8x32x8192_S1x32x8192_7_0_0 : ∀ a, (![7, 0, 0] : Fin 3 → Nat) a + S1x32x8192.size a ≤ S8x32x8192.size a
  inb_S32x8192_S32x8192_0_0 : ∀ a, (![0, 0] : Fin 2 → Nat) a + S32x8192.size a ≤ S32x8192.size a
  h_S32x8192 : 0 < S32x8192.numel
  reduces_S32x8192_S32 : S32x8192.Reduces [1] S32
  shapeCasts_S32_S32x1 : S32.ShapeCasts S32x1
  broadcasts_S32x1_S32x8192 : S32x1.Broadcasts S32x8192
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S32x8192 : S1x8192.Broadcasts S32x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x8192.size a ≤ S8x2048x8192.size a
  hwx0_0 : ∀ i : grid0.Coords, EltTy.bits .f32 = 32 ∨ (Rect.block (s := S8x2048x8192) S8x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8192.size a ≤ S2048x8192.size a
  hwx0_1 : ∀ i : grid0.Coords, EltTy.bits .f32 = 32 ∨ (Rect.block (s := S2048x8192) S32x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8192.size a
  hwx0_2 : ∀ i : grid0.Coords, EltTy.bits .f32 = 32 ∨ (Rect.block (s := S8192) S8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x8192.size a ≤ S2048x8192.size a
  hwx0_3 : ∀ i : grid0.Coords, EltTy.bits .f32 = 32 ∨ (Rect.block (s := S2048x8192) S32x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x8192.size a ≤ S2048x8192.size a
  hwx0_4 : ∀ i : grid0.Coords, EltTy.bits .f32 = 32 ∨ (Rect.block (s := S2048x8192) S32x8192.size (cc0_transform_4 i) (hinb0_4 i)).WholeWords (EltTy.packing .f32)

variable [Facts₀]

abbrev win0_0 : Pipeline.Window sig grid0 :=
  Pipeline.Window.ofSpec (Memref.whole main_arg0) S8x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S32x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S32x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x8192 : Shape := ⟨3, ![8, 2048, 8192]⟩
abbrev S2048x8192 : Shape := ⟨2, ![2048, 8192]⟩
abbrev S8192 : Shape := ⟨1, ![8192]⟩
abbrev S_ : Shape := ⟨0, ![]⟩
abbrev S2048 : Shape := ⟨1, ![2048]⟩
abbrev S2048x1 : Shape := ⟨2, ![2048, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x8192, .f32⟩
  | .hbm, ⟨1, _⟩ => ⟨S2048x8192, .f32⟩
  | .hbm, ⟨2, _⟩ => ⟨S8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x8192, .f32⟩
  | .hbm, ⟨18, _⟩ => ⟨S2048x8192, .f32⟩
  | .hbm, ⟨19, _⟩ => ⟨S1x8192, .f32⟩
  | .hbm, ⟨20, _⟩ => ⟨S2048x8192, .f32⟩
  | .hbm, ⟨21, _⟩ => ⟨S2048x8192, .f32⟩
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x2048x8192_S2048x8192_d0 : S8x2048x8192.ReducesTo [0] S2048x8192
  h_S_ : 0 < S_.numel
  reducesTo_S2048x8192_S2048_d1 : S2048x8192.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x8192_0_1 : S2048x1.BroadcastsInDim S2048x8192 (![0, 1] : Fin 2 → Fin S2048x8192.rank)
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)

variable [Facts₀]

class Facts : Prop extends Facts₀ where

variable [Facts]
-- ==== Proof.Spec.lean ====
/-
  What both programs compute, as functions of the three argument arrays over the extended reals.

  `x` holds eight replicas of a 2048 × 8192 activation, `r` a residual of that shape, `w` a weight per column.
  * `summed x r p q` : the eight replicas added entry by entry, plus the residual — the second result.
  * `invRms x r p`   : the reciprocal square root of (the mean over row `p` of the squares of `summed`) plus the
    literal `ε` both programs carry as the same f32 word; the mean is the row's sum divided by the f32 word of 8192.
  * `normed x r w`   : `summed · invRms · w`, multiplied in that order — the first result.
  The two float words are kept as words: each occurs once on either side and is never evaluated.

  The only arithmetic that separates the two programs is the order of additions: one adds the replicas one after the
  other from the first, the other adds their sum to a zero initial value. Addition of extended reals is commutative and
  associative with `0` neutral at the infinities too, so no finiteness is used (`add8`).
-/
import Idealize.ShloMosaic.PureOps.Ideal
import Idealize.ShloMosaic.PureOps.Ideal.Laws
import Idealize.ShloMosaic.Lib.ValueIdx

noncomputable section

namespace Cert.ReduceNorm

open Idealize.ShloMosaic Idealize.ShloMosaic.ValueIdx

/-- The replicated activation's shape, the residual's (and both results'), and the weight's. -/
abbrev Sx : Shape := ⟨3, ![8, 2048, 8192]⟩
abbrev Sr : Shape := ⟨2, ![2048, 8192]⟩
abbrev Sw : Shape := ⟨1, ![8192]⟩

/-- Entry `(p, q)` of the replicas' sum plus the residual. -/
def summed (x : FVec Ideal Sx .f32) (r : FVec Ideal Sr .f32) (p : Fin 2048) (q : Fin 8192) : EReal :=
  (∑ k : Fin 8, x (ix3 k p q)) + r (ix2 p q)

/-- Row `p`'s reciprocal root-mean-square, `rsqrt (Σ_j summed² / 8192 + ε)`. -/
def invRms (x : FVec Ideal Sx .f32) (r : FVec Ideal Sr .f32) (p : Fin 2048) : EReal :=
  Ideal.rsqrt (Ideal.div (∑ j : Fin 8192, summed x r p j * summed x r p j) (Ideal.ofBits .f32 0x46000000#32)
    + Ideal.ofBits .f32 0x358637BD#32)

/-- The first result: the normalized sum scaled by the weight of its column. -/
def normed (x : FVec Ideal Sx .f32) (r : FVec Ideal Sr .f32) (w : FVec Ideal Sw .f32) : FVec Ideal Sr .f32 :=
  fun i => summed x r (i 0) (i 1) * invRms x r (i 0) * w (ix1 (i 1))

/-- The second result: the sum itself. -/
def summedArr (x : FVec Ideal Sx .f32) (r : FVec Ideal Sr .f32) : FVec Ideal Sr .f32 :=
  fun i => summed x r (i 0) (i 1)

theorem normed_apply (x : FVec Ideal Sx .f32) (r : FVec Ideal Sr .f32) (w : FVec Ideal Sw .f32) (p : Fin 2048) (q : Fin 8192) :
    normed x r w (ix2 p q) = summed x r p q * invRms x r p * w (ix1 q) := rfl

theorem summedArr_apply (x : FVec Ideal Sx .f32) (r : FVec Ideal Sr .f32) (p : Fin 2048) (q : Fin 8192) :
    summedArr x r (ix2 p q) = summed x r p q := rfl

/-- Eight terms added one after the other from the first are their sum over `Fin 8`. -/
theorem add8 (f : Fin 8 → EReal) : f 0 + f 1 + f 2 + f 3 + f 4 + f 5 + f 6 + f 7 = ∑ k : Fin 8, f k :=
  (Fin.sum_univ_eight f).symm

end Cert.ReduceNorm

end
-- ==== Proof.LibColumn.lean ====
/-
  Two layout operations read at an index, in the column forms a sum with kept dimensions produces: a vector of
  length `a` cast to an `[a, 1]` matrix holds the vector's entry `i` in row `i`, and an `[a, 1]` matrix broadcast to
  `[a, b]` holds, everywhere in row `p`, the one entry of the operand's row `p`. Both are the library's general
  read-at-an-index lemmas with the coordinates' arithmetic done for indices written by coordinates.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(i, u)`, the operand at `i`: the row-major position of `(i, u)` in a
    one-column matrix is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column: the row
    coordinate is kept (or is `0` anyway when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelBlock.lean ====
/-
  One grid point of the kernel, as arithmetic on its three input blocks.

  A point sees a block `X0` of the replicated activation (8 × 32 × 8192: all replicas of 32 rows), the same 32 rows `X1` of
  the residual, and the whole weight `X2`. It adds the eight replica slabs one after the other from the first, then the
  residual (`tileSum`); sums each row's squares along the lanes from a zero accumulator, which the sum drops; divides by the
  word of 8192, adds `ε`, takes the reciprocal square root; and stores `tileSum · that · weight` to the first output block and
  `tileSum` to the second. Slab `k` is loaded through the rectangle at offset `(k, 0, 0)`, so its entry `(0, a, q)` is the
  block's `(k, a, q)`; the casts and broadcasts only move indices.
-/
import proofs.«172302_j4492535792388_1_alg».proof.Proof.Gen.KernelIdeal.Value
import proofs.«172302_j4492535792388_1_alg».proof.Proof.Spec
import proofs.«172302_j4492535792388_1_alg».proof.Proof.LibColumn
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.Lib.Column
open Cert.ReduceNorm

theorem zeros2 : (![0, 0] : Fin 2 → Nat) = fun _ => 0 := funext fun a => by fin_cases a <;> rfl
theorem zeros1 : (![0] : Fin 1 → Nat) = fun _ => 0 := funext fun a => by fin_cases a; rfl

/-- Entry `(a, q)` of a point's tile of the sum: the eight replicas of that entry added, plus the residual's. -/
def tileSum (X0 : Vec Ideal S8x32x8192 .f32) (X1 : Vec Ideal S32x8192 .f32) (a : Fin 32) (q : Fin 8192) : EReal :=
  (∑ k : Fin 8, (X0 (ix3 k a q) : EReal)) + (X1 (ix2 a q) : EReal)

/-- Row `a`'s reciprocal root-mean-square within the tile. -/
def tileInv (X0 : Vec Ideal S8x32x8192 .f32) (X1 : Vec Ideal S32x8192 .f32) (a : Fin 32) : EReal :=
  Ideal.rsqrt (Ideal.div (∑ j : Fin 8192, tileSum X0 X1 a j * tileSum X0 X1 a j) (Ideal.ofBits .f32 0x46000000#32)
    + Ideal.ofBits .f32 0x358637BD#32)

/-! ## The three payloads at an index, over arbitrary loaded values -/

/-- The running sum of the eight slabs and the residual, at `(a, q)`. -/
theorem pay2_at (P0 P1 P2 P3 P4 P5 P6 P7 : Vec Ideal S1x32x8192 .f32) (P8 : Vec Ideal S32x8192 .f32) (a : Fin 32) (q : Fin 8192) :
    k0_pay2 (F := Ideal) P0 P1 P2 P3 P4 P5 P6 P7 P8 (ix2 a q)
      = (P0 (ix3 (0 : Fin 1) a q) : EReal) + P1 (ix3 (0 : Fin 1) a q) + P2 (ix3 (0 : Fin 1) a q) + P3 (ix3 (0 : Fin 1) a q)
        + P4 (ix3 (0 : Fin 1) a q) + P5 (ix3 (0 : Fin 1) a q) + P6 (ix3 (0 : Fin 1) a q) + P7 (ix3 (0 : Fin 1) a q) + P8 (ix2 a q) := by
  unfold k0_pay2
  simp only [addf_apply, shapeCast_1ab_ab_apply]

/-- A lane sum from the zero accumulator, at row `a`: the sum of the row. -/
theorem rowsum_at (Y : FVec Ideal S32x8192 .f32) (h : S32x8192.Reduces [1] S32) (a : Fin 32) :
    multiReduction .add [1] S32 Y 0x00000000#32 h (.inl rfl) rfl (ix1 a) = ∑ j : Fin 8192, Y (ix2 a j) :=
  (Ideal.multiReduction_add_single Y 0x00000000#32 h (.inl rfl) rfl (ix1 a)).trans
    (Finset.sum_congr rfl fun j _ => congrArg Y (funext fun d => Fin.ext (by
      match d with
      | ⟨0, _⟩ => rfl
      | ⟨1, _⟩ => rfl)))

/-- The mean of the squares, kept as a one-column matrix, at row `a`. -/
theorem pay3_at (P0 P1 P2 P3 P4 P5 P6 P7 : Vec Ideal S1x32x8192 .f32) (P8 : Vec Ideal S32x8192 .f32) (a : Fin 32) (u : Fin 1) :
    k0_pay3 (F := Ideal) P0 P1 P2 P3 P4 P5 P6 P7 P8 (ix2 a u)
      = Ideal.div (∑ j : Fin 8192, k0_pay2 (F := Ideal) P0 P1 P2 P3 P4 P5 P6 P7 P8 (ix2 a j) * k0_pay2 (F := Ideal) P0 P1 P2 P3 P4 P5 P6 P7 P8 (ix2 a j))
          (Ideal.ofBits .f32 0x46000000#32) := by
  unfold k0_pay3
  generalize k0_pay2 (F := Ideal) P0 P1 P2 P3 P4 P5 P6 P7 P8 = Y
  show Ideal.div (shapeCast S32x1 (multiReduction .add [1] S32 (mulf Y Y) 0x00000000#32 _ (.inl rfl) rfl) _ (ix2 a u))
      (Ideal.ofBits .f32 0x46000000#32) = _
  rw [shapeCast_a_a1_apply, rowsum_at]
  rfl

/-- The first stored value at `(a, q)`: the sum times the row's factor times the column's weight. -/
theorem pay1_at (v24 : FVec Ideal S32x8192 .f32) (v29 : FVec Ideal S32x1 .f32) (c : Ideal .f32) (v35 : Vec Ideal S8192 .f32)
    (a : Fin 32) (q : Fin 8192) :
    k0_pay1 (F := Ideal) v24 v29 c v35 (ix2 a q)
      = v24 (ix2 a q) * Ideal.rsqrt (v29 (ix2 a (0 : Fin 1)) + c) * (v35 (ix1 q) : EReal) := by
  unfold k0_pay1
  show (v24 (ix2 a q) * broadcastTo S32x8192 (rsqrt (addf v29 (broadcast S32x1 c))) _ (ix2 a q))
      * broadcastTo S32x8192 (shapeCast S1x8192 v35 _) _ (ix2 a q) = _
  rw [broadcastTo_a1_ab_apply, broadcastTo_1b_ab_apply, shapeCast_a_1a_apply]
  rfl

/-! ## Over the blocks: the loads put in -/

/-- Slab `k` of the block, loaded through the rectangle at offset `(k, 0, 0)`, holds at `(0, a, q)` the block's `(k, a, q)`. -/
theorem slab_at (X0 : Vec Ideal S8x32x8192 .f32) (off : Fin 3 → Nat)
    (inb : ∀ d, off d + S1x32x8192.size d ≤ S8x32x8192.size d) (k : Fin 8) (a : Fin 32) (q : Fin 8192)
    (h0 : off 0 = k.val) (h1 : off 1 = 0) (h2 : off 2 = 0) :
    View.ld X0 (Rect.unit (s := S8x32x8192) off S1x32x8192.size inb) (ix3 (0 : Fin 1) a q) = X0 (ix3 k a q) := by
  show X0 _ = X0 _
  refine congrArg X0 (funext fun d => Fin.ext ?_)
  match d with
  | ⟨0, _⟩ => show off 0 + 1 * 0 = k.val; omega
  | ⟨1, _⟩ => show off 1 + 1 * a.val = a.val; omega
  | ⟨2, _⟩ => show off 2 + 1 * q.val = q.val; omega

/-- The running sum over a point's loads is `tileSum` of its blocks. -/
theorem pay2_blocks (X0 : Vec Ideal S8x32x8192 .f32) (X1 : Vec Ideal S32x8192 .f32) (a : Fin 32) (q : Fin 8192) :
    k0_pay2 (F := Ideal) (View.ld X0 r0_0) (View.ld X0 r0_1) (View.ld X0 r0_2) (View.ld X0 r0_3) (View.ld X0 r0_4) (View.ld X0 r0_5) (View.ld X0 r0_6) (View.ld X0 r0_7) (View.ld X1 r0_8) (ix2 a q) = tileSum X0 X1 a q := by
  rw [pay2_at, slab_at X0 ![0, 0, 0] _ 0 a q rfl rfl rfl, slab_at X0 ![1, 0, 0] _ 1 a q rfl rfl rfl,
    slab_at X0 ![2, 0, 0] _ 2 a q rfl rfl rfl, slab_at X0 ![3, 0, 0] _ 3 a q rfl rfl rfl,
    slab_at X0 ![4, 0, 0] _ 4 a q rfl rfl rfl, slab_at X0 ![5, 0, 0] _ 5 a q rfl rfl rfl,
    slab_at X0 ![6, 0, 0] _ 6 a q rfl rfl rfl, slab_at X0 ![7, 0, 0] _ 7 a q rfl rfl rfl,
    View.ld_unit_zero (S := S32x8192) zeros2]
  unfold tileSum
  exact congrArg (· + (X1 (ix2 a q) : EReal)) (add8 fun k => (X0 (ix3 k a q) : EReal))

/-- What the body leaves in the second output's buffer, at `(a, q)`. -/
theorem out4_at (X0 : Vec Ideal S8x32x8192 .f32) (X1 : Vec Ideal S32x8192 .f32) (X2 : Vec Ideal S8192 .f32)
    (a : Fin 32) (q : Fin 8192) : out0_4 (F := Ideal) X0 X1 X2 (ix2 a q) = tileSum X0 X1 a q := by
  unfold out0_4
  rw [View.canon_unit_zero zeros2, pay2_blocks]

/-- What the body leaves in the first output's buffer, at `(a, q)`. -/
theorem out3_at (X0 : Vec Ideal S8x32x8192 .f32) (X1 : Vec Ideal S32x8192 .f32) (X2 : Vec Ideal S8192 .f32)
    (a : Fin 32) (q : Fin 8192) :
    out0_3 (F := Ideal) X0 X1 X2 (ix2 a q) = tileSum X0 X1 a q * tileInv X0 X1 a * (X2 (ix1 q) : EReal) := by
  unfold out0_3
  rw [View.canon_unit_zero zeros2, pay1_at, pay3_at, pay2_blocks, View.ld_unit_zero (S := S8192) zeros1]
  simp only [pay2_blocks]
  rfl

end Cert.KernelIdeal.Block

end
-- ==== Proof.KernelArray.lean ====
/-
  From the grid's 64 points to the two result arrays of the kernel, over the extended reals.

  Point `t` works on rows `32 t … 32 t + 31`: its block of the activation is those rows of all eight replicas, its block of
  the residual those rows, its block of the weight the whole weight, and it writes those rows of both results. So an entry
  `(a, q)` of a block is the array's entry `(32 t + a, q)`, a tile's sum is `summed` at that row, a tile's row factor is
  `invRms` of that row (a row's mean needs the row only, and a tile holds whole rows), and what the point writes back is
  block `t` of `normed` and of `summedArr`. Row `r` lies in the block of point `r / 32`, so the 64 blocks cover each result,
  which therefore ends holding that function of the arguments.
-/
import proofs.«172302_j4492535792388_1_alg».proof.Proof.Gen.KernelIdeal.Value
import proofs.«172302_j4492535792388_1_alg».proof.Proof.KernelBlock
import Idealize.ShloMosaic.Lib.Pipeline.Value

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.ReduceNorm
open Idealize.ShloMosaic.Pipeline (Dat)

variable (m : (ℓ : Loc nD τ sig) → Buf (Elt Ideal) ℓ) (ρ : Dev nD → PrngReg)

/-- The three argument arrays as the region finds them, at their literal types. -/
abbrev xarr (c : Dev nD) : FVec Ideal Sx .f32 := V m c main_arg0
abbrev rarr (c : Dev nD) : FVec Ideal Sr .f32 := V m c main_arg1
abbrev warr (c : Dev nD) : FVec Ideal Sw .f32 := V m c main_arg2

/-- The printed index maps over the grid: every window that moves follows the point along the rows. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 64 :=
  Nat.lt_of_lt_of_eq t.isLt N_0

/-! ## The input blocks as rows of the arrays -/

theorem iblk0_at (c : Dev nD) (t : Fin cfg0.N) (k : Fin 8) (a : Fin 32) (q : Fin 8192) (p : Fin 2048)
    (hp : p.val = 32 * t.val + a.val) :
    (iblk m c 0 t : Vec Ideal S8x32x8192 .f32) (ix3 k a q) = xarr m c (ix3 k p q) := by
  obtain ⟨e0, e1, e2, -⟩ := idx_facts t
  unfold iblk
  rw [View.read_apply]
  show V m c main_arg0 _ = V m c main_arg0 _
  congr 1
  funext d
  apply Fin.ext
  match d with
  | ⟨0, _⟩ => show win0_0.index t (0 : Fin 3) * 8 + 1 * k.val = k.val; rw [e0]; omega
  | ⟨1, _⟩ => show win0_0.index t (1 : Fin 3) * 32 + 1 * a.val = p.val; rw [e1, hp]; omega
  | ⟨2, _⟩ => show win0_0.index t (2 : Fin 3) * 8192 + 1 * q.val = q.val; rw [e2]; omega

theorem iblk1_at (c : Dev nD) (t : Fin cfg0.N) (a : Fin 32) (q : Fin 8192) (p : Fin 2048)
    (hp : p.val = 32 * t.val + a.val) :
    (iblk m c 1 t : Vec Ideal S32x8192 .f32) (ix2 a q) = rarr m c (ix2 p q) := by
  obtain ⟨-, -, -, e0, e1, -⟩ := idx_facts t
  unfold iblk
  rw [View.read_apply]
  show V m c main_arg1 _ = V m c main_arg1 _
  congr 1
  funext d
  apply Fin.ext
  match d with
  | ⟨0, _⟩ => show win0_1.index t (0 : Fin 2) * 32 + 1 * a.val = p.val; rw [e0, hp]; omega
  | ⟨1, _⟩ => show win0_1.index t (1 : Fin 2) * 8192 + 1 * q.val = q.val; rw [e1]; omega

theorem iblk2_at (c : Dev nD) (t : Fin cfg0.N) (q : Fin 8192) :
    (iblk m c 2 t : Vec Ideal S8192 .f32) (ix1 q) = warr m c (ix1 q) := by
  obtain ⟨-, -, -, -, -, e0, -⟩ := idx_facts t
  unfold iblk
  rw [View.read_apply]
  show V m c main_arg2 _ = V m c main_arg2 _
  congr 1
  funext d
  apply Fin.ext
  match d with
  | ⟨0, _⟩ => show win0_2.index t (0 : Fin 1) * 8192 + 1 * q.val = q.val; rw [e0]; omega

/-- A tile's sum is the arrays' sum at the tile's row. -/
theorem tileSum_eq (c : Dev nD) (t : Fin cfg0.N) (a : Fin 32) (q : Fin 8192) (p : Fin 2048)
    (hp : p.val = 32 * t.val + a.val) :
    tileSum (iblk m c 0 t) (iblk m c 1 t) a q = summed (xarr m c) (rarr m c) p q := by
  unfold tileSum summed
  rw [iblk1_at m c t a q p hp]
  exact congrArg (fun s : EReal => s + rarr m c (ix2 p q)) (Finset.sum_congr rfl fun k _ => iblk0_at m c t k a q p hp)

/-- A tile's row factor is that row's. -/
theorem tileInv_eq (c : Dev nD) (t : Fin cfg0.N) (a : Fin 32) (p : Fin 2048) (hp : p.val = 32 * t.val + a.val) :
    tileInv (iblk m c 0 t) (iblk m c 1 t) a = invRms (xarr m c) (rarr m c) p := by
  unfold tileInv invRms
  exact congrArg (fun s : EReal => Ideal.rsqrt (Ideal.div s (Ideal.ofBits .f32 0x46000000#32) + Ideal.ofBits .f32 0x358637BD#32))
    (Finset.sum_congr rfl fun j _ => by rw [tileSum_eq m c t a j p hp])

/-! ## What each point writes back -/

/-- Entry `(a, q)` of an output block of point `t` is the array's entry `(32 t + a, q)`. -/
theorem emb3_at (t : Fin cfg0.N) (a : Fin 32) (q : Fin 8192) (p : Fin 2048) (hp : p.val = 32 * t.val + a.val) :
    ((cfg0.win 3).blk t).view.emb (ix2 a q) = ix2 p q := by
  obtain ⟨-, -, -, -, -, -, e0, e1, -⟩ := idx_facts t
  funext d
  apply Fin.ext
  match d with
  | ⟨0, _⟩ => show win0_3.index t (0 : Fin 2) * 32 + 1 * a.val = p.val; rw [e0, hp]; omega
  | ⟨1, _⟩ => show win0_3.index t (1 : Fin 2) * 8192 + 1 * q.val = q.val; rw [e1]; omega

theorem emb4_at (t : Fin cfg0.N) (a : Fin 32) (q : Fin 8192) (p : Fin 2048) (hp : p.val = 32 * t.val + a.val) :
    ((cfg0.win 4).blk t).view.emb (ix2 a q) = ix2 p q := by
  obtain ⟨-, -, -, -, -, -, -, -, e0, e1⟩ := idx_facts t
  funext d
  apply Fin.ext
  match d with
  | ⟨0, _⟩ => show win0_4.index t (0 : Fin 2) * 32 + 1 * a.val = p.val; rw [e0, hp]; omega
  | ⟨1, _⟩ => show win0_4.index t (1 : Fin 2) * 8192 + 1 * q.val = q.val; rw [e1]; omega

/-- Point `t` writes back block `t` of `normed` of the arrays. -/
theorem flushed3_eq (c : Dev nD) (t : Fin cfg0.N) :
    (dats m 0 c).flushed 3 t
      = ((cfg0.win 3).blk t).view.read (Elt Ideal) (normed (xarr m c) (rarr m c) (warr m c)) := by
  rw [Cert.KernelIdeal.Value.flushed3]
  refine funext fun (y : S32x8192.Idx) => ?_
  obtain ⟨a, q, rfl⟩ : ∃ (a : Fin 32) (q : Fin 8192), y = ix2 a q := ⟨y 0, y 1, eq_ix2 y⟩
  have ht := point_lt t
  show out0_3 (iblk m c 0 t) (iblk m c 1 t) (iblk m c 2 t) (ix2 a q)
    = normed (xarr m c) (rarr m c) (warr m c) (((cfg0.win 3).blk t).view.emb (ix2 a q))
  rw [emb3_at t a q ⟨32 * t.val + a.val, by omega⟩ rfl, normed_apply]
  refine (out3_at (iblk m c 0 t) (iblk m c 1 t) (iblk m c 2 t) a q).trans ?_
  rw [tileSum_eq m c t a q ⟨32 * t.val + a.val, by omega⟩ rfl, tileInv_eq m c t a ⟨32 * t.val + a.val, by omega⟩ rfl,
    iblk2_at m c t q]

/-- Point `t` writes back block `t` of `summedArr` of the arrays. -/
theorem flushed4_eq (c : Dev nD) (t : Fin cfg0.N) :
    (dats m 0 c).flushed 4 t
      = ((cfg0.win 4).blk t).view.read (Elt Ideal) (summedArr (xarr m c) (rarr m c)) := by
  rw [Cert.KernelIdeal.Value.flushed4]
  refine funext fun (y : S32x8192.Idx) => ?_
  obtain ⟨a, q, rfl⟩ : ∃ (a : Fin 32) (q : Fin 8192), y = ix2 a q := ⟨y 0, y 1, eq_ix2 y⟩
  have ht := point_lt t
  show out0_4 (iblk m c 0 t) (iblk m c 1 t) (iblk m c 2 t) (ix2 a q)
    = summedArr (xarr m c) (rarr m c) (((cfg0.win 4).blk t).view.emb (ix2 a q))
  rw [emb4_at t a q ⟨32 * t.val + a.val, by omega⟩ rfl, summedArr_apply]
  refine (out4_at (iblk m c 0 t) (iblk m c 1 t) (iblk m c 2 t) a q).trans ?_
  rw [tileSum_eq m c t a q ⟨32 * t.val + a.val, by omega⟩ rfl]

/-! ## The blocks cover the results -/

theorem mem_blk3 (t : Fin cfg0.N) (i : S2048x8192.Idx) :
    i ∈ ((cfg0.win 3).blk t).view.set ↔ ∀ a : Fin 2, win0_3.index t a * S32x8192.size a ≤ (i a).val
      ∧ (i a).val < win0_3.index t a * S32x8192.size a + S32x8192.size a := by
  show i ∈ ((View.whole main_v0_0).slice (win0_3.rect t)).set ↔ _
  rw [View.set_slice_whole, Rect.mem_set_unit]
  exact Iff.rfl

theorem mem_blk4 (t : Fin cfg0.N) (i : S2048x8192.Idx) :
    i ∈ ((cfg0.win 4).blk t).view.set ↔ ∀ a : Fin 2, win0_4.index t a * S32x8192.size a ≤ (i a).val
      ∧ (i a).val < win0_4.index t a * S32x8192.size a + S32x8192.size a := by
  show i ∈ ((View.whole main_v0_1).slice (win0_4.rect t)).set ↔ _
  rw [View.set_slice_whole, Rect.mem_set_unit]
  exact Iff.rfl

/-- The point whose rows hold row `r`. -/
def pointOf (i : S2048x8192.Idx) : Fin cfg0.N :=
  ⟨(i 0).val / 32, Nat.lt_of_lt_of_eq (by have h : (i 0).val < 2048 := (i 0).isLt; omega) N_0.symm⟩

theorem pointOf_val (i : S2048x8192.Idx) : (pointOf i).val = (i 0).val / 32 := rfl

theorem cover3 (i : S2048x8192.Idx) :
    ∃ t : Fin cfg0.N, (cfg0.win 3).flush t = true ∧ i ∈ ((cfg0.win 3).blk t).view.set := by
  have hi0 : (i 0).val < 2048 := (i 0).isLt
  have hi1 : (i 1).val < 8192 := (i 1).isLt
  obtain ⟨-, -, -, -, -, -, e0, e1, -⟩ := idx_facts (pointOf i)
  rw [pointOf_val] at e0
  refine ⟨pointOf i, flush0_3 _, ?_⟩
  rw [mem_blk3]
  intro a
  match a with
  | ⟨0, _⟩ =>
    show win0_3.index (pointOf i) (0 : Fin 2) * 32 ≤ (i 0).val ∧ (i 0).val < win0_3.index (pointOf i) (0 : Fin 2) * 32 + 32
    rw [e0]; omega
  | ⟨1, _⟩ =>
    show win0_3.index (pointOf i) (1 : Fin 2) * 8192 ≤ (i 1).val ∧ (i 1).val < win0_3.index (pointOf i) (1 : Fin 2) * 8192 + 8192
    rw [e1]; omega

theorem cover4 (i : S2048x8192.Idx) :
    ∃ t : Fin cfg0.N, (cfg0.win 4).flush t = true ∧ i ∈ ((cfg0.win 4).blk t).view.set := by
  have hi0 : (i 0).val < 2048 := (i 0).isLt
  have hi1 : (i 1).val < 8192 := (i 1).isLt
  obtain ⟨-, -, -, -, -, -, -, -, e0, e1⟩ := idx_facts (pointOf i)
  rw [pointOf_val] at e0
  refine ⟨pointOf i, flush0_4 _, ?_⟩
  rw [mem_blk4]
  intro a
  match a with
  | ⟨0, _⟩ =>
    show win0_4.index (pointOf i) (0 : Fin 2) * 32 ≤ (i 0).val ∧ (i 0).val < win0_4.index (pointOf i) (0 : Fin 2) * 32 + 32
    rw [e0]; omega
  | ⟨1, _⟩ =>
    show win0_4.index (pointOf i) (1 : Fin 2) * 8192 ≤ (i 1).val ∧ (i 1).val < win0_4.index (pointOf i) (1 : Fin 2) * 8192 + 8192
    rw [e1]; omega

/-! ## The result arrays, and the run -/

theorem final3 (c : Dev nD) : (dats m 0 c).arrAt 3 cfg0.N = normed (xarr m c) (rarr m c) (warr m c) :=
  (dats m 0 c).arrAt_eq_of_cover 3 (normed (xarr m c) (rarr m c) (warr m c)) (fun t _ => flushed3_eq m c t) cover3

theorem final4 (c : Dev nD) : (dats m 0 c).arrAt 4 cfg0.N = summedArr (xarr m c) (rarr m c) :=
  (dats m 0 c).arrAt_eq_of_cover 4 (summedArr (xarr m c) (rarr m c)) (fun t _ => flushed4_eq m c t) cover4

/-- The kernel's run: the first result ends at `normed`, the second at `summedArr` of the argument arrays, which are
    unchanged. -/
theorem run : θ_run defs (onTc (τ := τ) (main (F := Ideal))) ⟨m, fun _ => 0, ρ⟩ fun r => ∀ c : Dev nD,
      r.2.mem ((c : Thread nD τ).loc main_v0_0) = normed (xarr m c) (rarr m c) (warr m c)
      ∧ r.2.mem ((c : Thread nD τ).loc main_v0_1) = summedArr (xarr m c) (rarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.Whole

end
-- ==== Proof.RefValue.lean ====
/-
  The reference's two results, read one operation at a time, are `normed` and `summedArr` of its arguments.

  Its sum over the replica axis starts from a zero word: `0 + Σ_k x(k, p, q)`, and `0 + s = s` on the extended reals.
  The row sum of squares likewise. The keepdims column `[2048, 1]` and the two broadcasts only move indices: entry
  `(p, q)` of the broadcast column is the column's row `p`, entry `(p, q)` of the broadcast weight is the weight's `q`.
  The host's quotient and reciprocal square root are the extended reals' `div` and `rsqrt`.
-/
import proofs.«172302_j4492535792388_1_alg».proof.Proof.Gen.ReferenceIdeal.Read
import proofs.«172302_j4492535792388_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.ReduceNorm

variable (x0 : FVec Ideal Sx .f32) (x1 : FVec Ideal Sr .f32) (x2 : FVec Ideal Sw .f32)

/-- The replica sum plus the residual at `(p, q)`. -/
theorem v1_at (p : Fin 2048) (q : Fin 8192) : val_main_v1 (F := Ideal) x0 x1 (ix2 p q) = summed x0 x1 p q := by
  rw [val_main_v1_apply, val_main_v0_apply, val_main_cst_apply]
  simp only [Ideal.addf_def, Ideal.ofBits_def, Ideal.ofBits_zero_f32, zero_add]
  unfold summed
  refine congrArg (· + x1 (ix2 p q)) (Finset.sum_congr rfl fun k _ => ?_)
  exact congrArg x0 (funext fun a => Fin.ext (by match a with | ⟨0, _⟩ => rfl | ⟨1, _⟩ => rfl | ⟨2, _⟩ => rfl))

/-- Row `p`'s sum of squares. -/
theorem v3_at (p : Fin 2048) :
    val_main_v3 (F := Ideal) x0 x1 (ix1 p) = ∑ j : Fin 8192, summed x0 x1 p j * summed x0 x1 p j := by
  rw [val_main_v3_apply, val_main_cst_0_apply]
  simp only [Ideal.ofBits_def, Ideal.ofBits_zero_f32, zero_add]
  refine Finset.sum_congr rfl fun j _ => ?_
  rw [show idx_main_v3 (ix1 p) j = ix2 p j from
    funext fun a => Fin.ext (by match a with | ⟨0, _⟩ => rfl | ⟨1, _⟩ => rfl), val_main_v2_apply, v1_at]
  rfl

/-- The keepdims column's row `p`, after the quotient, the `ε` and the reciprocal square root. -/
theorem v9_at (p : Fin 2048) (u : Fin 1) : val_main_v9 (F := Ideal) x0 x1 (ix2 p u) = invRms x0 x1 p := by
  rw [val_main_v9_apply, val_main_v8_apply, val_main_v6_apply, val_main_v7_apply, val_main_cst_2_apply,
    val_main_v5_apply, val_main_cst_1_apply, val_main_v4_apply,
    show idx_main_v4 (ix2 p u) = ix1 p from funext fun a => Fin.ext (by match a with | ⟨0, _⟩ => rfl), v3_at]
  simp only [Ideal.hostUnary_rsqrt_def, Ideal.addf_def, Ideal.hostDivf_def, Ideal.ofBits_def]
  rfl

/-- The first result at `(p, q)`. -/
theorem v14_at (p : Fin 2048) (q : Fin 8192) :
    val_main_v14 (F := Ideal) x0 x1 x2 (ix2 p q) = summed x0 x1 p q * invRms x0 x1 p * x2 (ix1 q) := by
  rw [val_main_v14_apply, val_main_v11_apply, val_main_v13_apply, val_main_v12_apply, val_main_v10_apply, v1_at,
    show idx_main_v10 (ix2 p q) = ix2 p (0 : Fin 1) from
      funext fun a => Fin.ext (by match a with | ⟨0, _⟩ => rfl | ⟨1, _⟩ => rfl), v9_at,
    show idx_main_v12 (idx_main_v13 (ix2 p q)) = ix1 q from funext fun a => Fin.ext (by match a with | ⟨0, _⟩ => rfl)]
  rfl

/-- The reference's first result is `normed` of its arguments. -/
theorem v14_eq : val_main_v14 (F := Ideal) x0 x1 x2 = normed x0 x1 x2 := by
  funext i
  obtain ⟨p, q, rfl⟩ : ∃ (p : Fin 2048) (q : Fin 8192), i = ix2 p q := ⟨i 0, i 1, eq_ix2 i⟩
  rw [v14_at, normed_apply]

/-- The reference's second result is `summedArr` of its arguments. -/
theorem v1_eq : val_main_v1 (F := Ideal) x0 x1 = summedArr x0 x1 := by
  funext i
  obtain ⟨p, q, rfl⟩ : ∃ (p : Fin 2048) (q : Fin 8192), i = ix2 p q := ⟨i 0, i 1, eq_ix2 i⟩
  rw [v1_at, summedArr_apply]

end Cert.ReferenceIdeal.RefValue

end
-- ==== Proof.lean ====
/-
  A tensor-parallel all-reduce fused with a residual add and an RMS normalization, against its plain reference, over
  the extended reals.

  Both programs take eight replicas `x` of a 2048 × 8192 activation, a residual `r` and a per-column weight `w`, and return
  `y · rsqrt(mean_j y² + ε) · w` and `y`, where `y = Σ_k x_k + r`. The kernel walks 64 tiles of 32 whole rows, adds the
  replicas one after the other and sums the squares along the lanes from a zero accumulator; the reference sums over the
  replica axis and over the columns from zero initial values. The float words (8192, ε, the zeros) are the same on both
  sides, the quotient and the reciprocal square root are the same functions of extended reals, and the products are taken
  in the same order, so the two sides differ only in how a sum of eight terms is bracketed and in a leading `0 +`:
  addition of extended reals is commutative and associative with `0` neutral, infinities included, so the precondition
  is not used for the values.

  The kernel's side (Proof/KernelBlock.lean: one tile; Proof/KernelArray.lean: the 64 tiles cover both results) and the
  reference's side (Proof/RefValue.lean) are each shown equal to the functions `normed` and `summedArr` of
  Proof/Spec.lean. The three frames are the generated runs; the idealization rewrote nothing, so `preserves` is trivial.
-/
import proofs.«172302_j4492535792388_1_alg».proof.Defs
import proofs.«172302_j4492535792388_1_alg».proof.Proof.Gen.Kernel
import proofs.«172302_j4492535792388_1_alg».proof.Proof.Gen.Kernel.Skeleton
import proofs.«172302_j4492535792388_1_alg».proof.Proof.Gen.Kernel.Launch
import proofs.«172302_j4492535792388_1_alg».proof.Proof.Gen.Kernel.Points
import proofs.«172302_j4492535792388_1_alg».proof.Proof.Gen.Kernel.Frame
import proofs.«172302_j4492535792388_1_alg».proof.Proof.Gen.KernelIdeal
import proofs.«172302_j4492535792388_1_alg».proof.Proof.Gen.KernelIdeal.Skeleton
import proofs.«172302_j4492535792388_1_alg».proof.Proof.Gen.KernelIdeal.Launch
import proofs.«172302_j4492535792388_1_alg».proof.Proof.Gen.KernelIdeal.Points
import proofs.«172302_j4492535792388_1_alg».proof.Proof.Gen.KernelIdeal.Frame
import proofs.«172302_j4492535792388_1_alg».proof.Proof.Gen.ReferenceIdeal
import proofs.«172302_j4492535792388_1_alg».proof.Proof.Gen.Pre_finite_inputs
import proofs.«172302_j4492535792388_1_alg».proof.Proof.Gen.KernelIdeal.Value
import proofs.«172302_j4492535792388_1_alg».proof.Proof.Gen.ReferenceIdeal.Run
import proofs.«172302_j4492535792388_1_alg».proof.Proof.Gen.ReferenceIdeal.Read
import proofs.«172302_j4492535792388_1_alg».proof.Proof.KernelArray
import proofs.«172302_j4492535792388_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2)
    (Cert.ReferenceIdeal.Value.run (F := Ideal) m ρ)

/-- Both runs end with the first result at `normed` and the second at `summedArr` of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_)
    (Cert.ReferenceIdeal.Value.run (F := Ideal) m' ρ')
  obtain ⟨h14, h1, hkept⟩ := h c
  obtain ⟨a0, a1, a2⟩ := hagree c
  refine ⟨h14.trans ?_, h1.trans ?_, hkept⟩
  · rw [Cert.ReferenceIdeal.Read.val_main_v14_eq, Cert.ReferenceIdeal.RefValue.v14_eq, a0, a1, a2]
  · rw [Cert.ReferenceIdeal.Read.val_main_v1_eq, Cert.ReferenceIdeal.RefValue.v1_eq, a0, a1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
